-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x512 : Shape := ⟨2, ![8192, 512]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  main_v18

def fn {F : FTy → Type} [FloatOps F] (main_arg0 : FVec F S8192 .f32) (main_arg1 : FVec F S8192 .f32) (main_arg2 : FVec F S8192x512 .f32) (main_arg3 : FVec F S8192x512 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_v13 main_v16
-- ==== Kernel.lean ====
abbrev S8192 : Shape := ⟨1, ![8192]⟩
abbrev S8192x512 : Shape := ⟨2, ![8192, 512]⟩
abbrev S_ : Shape := ⟨0, ![]⟩
abbrev S8192x1 : Shape := ⟨2, ![8192, 1]⟩
abbrev S1x8192 : Shape := ⟨2, ![1, 8192]⟩
abbrev S1024x512 : Shape := ⟨2, ![1024, 512]⟩
abbrev S1x1024 : Shape := ⟨2, ![1, 1024]⟩
abbrev S512x1024 : Shape := ⟨2, ![512, 1024]⟩
abbrev S1024x1024 : Shape := ⟨2, ![1024, 1024]⟩
abbrev S1024 : Shape := ⟨1, ![1024]⟩

abbrev nBuf : Space → Nat
  | .hbm => 58
  | .vmem => 7
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x512, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x512, .f32⟩
  | .hbm, ⟨21, _⟩ => ⟨S8192x512, .f32⟩
  | .hbm, ⟨22, _⟩ => ⟨S8192x512, .bf16⟩
  | .hbm, ⟨23, _⟩ => ⟨S8192x512, .f32⟩
  | .hbm, ⟨24, _⟩ => ⟨S8192x512, .f32⟩
  | .hbm, ⟨25, _⟩ => ⟨S8192x512, .bf16⟩
  | .hbm, ⟨26, _⟩ => ⟨S1x8192, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192, .f32⟩
  | .hbm, ⟨32, _⟩ => ⟨S8192, .f32⟩
  | .hbm, ⟨33, _⟩ => ⟨S8192, .i1⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S8192, .f32⟩
  | .hbm, ⟨38, _⟩ => ⟨S8192, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call2_cst : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_v6 : Ref sig .tc := ⟨.hbm, 35, rfl⟩
abbrev main_call2_v7 : Ref sig .tc := ⟨.hbm, 36, rfl⟩
abbrev main_call2_v8 : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_1 : Ref sig .tc := ⟨.hbm, 44, rfl⟩
abbrev main_v17 : Ref sig .tc := ⟨.hbm, 45, rfl⟩
abbrev main_v18 : Ref sig .tc := ⟨.hbm, 46, rfl⟩
abbrev main_cst_2 : Ref sig .tc := ⟨.hbm, 47, rfl⟩
abbrev main_v19 : Ref sig .tc := ⟨.hbm, 48, rfl⟩
abbrev main_v20 : Ref sig .tc := ⟨.hbm, 49, rfl⟩
abbrev main_cst_3 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_4 : Ref sig .tc := ⟨.hbm, 54, rfl⟩
abbrev main_v24 : Ref sig .tc := ⟨.hbm, 55, rfl⟩
abbrev main_cst_5 : Ref sig .tc := ⟨.hbm, 56, rfl⟩
abbrev main_v25 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  transposes_S1024x512_p1_0_S512x1024 : S1024x512.Transposes [1, 0] S512x1024
  reduces_S1024x1024_S1024 : S1024x1024.Reduces [0] S1024
  shapeCasts_S1024_S1x1024 : S1024.ShapeCasts S1x1024
  shapeCasts_S1x8192_S8192 : S1x8192.ShapeCasts S8192
  bcast_S_S8192 : S_.BroadcastsInDim S8192 (![] : Fin 0 → Fin S8192.rank)
  reducesTo_S8192_S_d0 : S8192.ReducesTo [0] S_
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v8) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192 : Shape := ⟨1, ![8192]⟩
abbrev S8192x512 : Shape := ⟨2, ![8192, 512]⟩
abbrev S_ : Shape := ⟨0, ![]⟩
abbrev S8192x1 : Shape := ⟨2, ![8192, 1]⟩
abbrev S8192x8192 : Shape := ⟨2, ![8192, 8192]⟩

abbrev nBuf : Space → Nat
  | .hbm => 57
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S8192, .i1⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S8192, .f32⟩
  | .hbm, ⟨20, _⟩ => ⟨S8192x512, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x512, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_call1_v0 : Ref sig .tc := ⟨.hbm, 20, rfl⟩
abbrev main_call1_cst : Ref sig .tc := ⟨.hbm, 21, rfl⟩
abbrev main_call1_v1 : Ref sig .tc := ⟨.hbm, 22, rfl⟩
abbrev main_call1_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_v5 : Ref sig .tc := ⟨.hbm, 27, rfl⟩
abbrev main_call2_v0 : Ref sig .tc := ⟨.hbm, 28, rfl⟩
abbrev main_call2_cst : Ref sig .tc := ⟨.hbm, 29, rfl⟩
abbrev main_call2_v1 : Ref sig .tc := ⟨.hbm, 30, rfl⟩
abbrev main_call2_v2 : Ref sig .tc := ⟨.hbm, 31, rfl⟩
abbrev main_v6 : Ref sig .tc := ⟨.hbm, 32, rfl⟩
abbrev main_cst_0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_1 : Ref sig .tc := ⟨.hbm, 41, rfl⟩
abbrev main_v14 : Ref sig .tc := ⟨.hbm, 42, rfl⟩
abbrev main_cst_2 : Ref sig .tc := ⟨.hbm, 43, rfl⟩
abbrev main_v15 : Ref sig .tc := ⟨.hbm, 44, rfl⟩
abbrev main_v16 : Ref sig .tc := ⟨.hbm, 45, rfl⟩
abbrev main_cst_3 : Ref sig .tc := ⟨.hbm, 46, rfl⟩
abbrev main_v17 : Ref sig .tc := ⟨.hbm, 47, rfl⟩
abbrev main_v18 : Ref sig .tc := ⟨.hbm, 48, rfl⟩
abbrev main_cst_4 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_5 : Ref sig .tc := ⟨.hbm, 53, rfl⟩
abbrev main_v22 : Ref sig .tc := ⟨.hbm, 54, rfl⟩
abbrev main_cst_6 : Ref sig .tc := ⟨.hbm, 55, rfl⟩
abbrev main_v23 : Ref sig .tc := ⟨.hbm, 56, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  reducesTo_S8192x8192_S8192_d1 : S8192x8192.ReducesTo [1] S8192
  reducesTo_S8192_S_d0 : S8192.ReducesTo [0] S_
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.Pieces.lean ====
/-
  What one grid point leaves behind, as values.

  The kernel keeps a row of 1024 running maxima in a scratch buffer. At the first memory tile of a feature tile it
  resets the row to `-∞`; at every point it replaces the row by the entrywise maximum of the row and the column
  maxima of the tile product (the payload `k0_pay2` of the memory block, the feature block and the row it finds);
  at the last memory tile it also copies the updated row into the output block. Each of the three control cases
  therefore leaves, in the scratch, `k0_pay2` of the two blocks and of the row it started from — the reset row
  `k0_pay1` in the first case, the row the point before left otherwise — and the last case leaves the same row in the
  output block.
-/
import proofs.«179216_j46334107189284_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- A block read from its first entry on. -/
theorem hz : (![0, 0] : Fin 2 → Nat) = fun _ => 0 := funext fun a => by fin_cases a <;> rfl

/-- At the first memory tile: the reset row, then one update of it. -/
theorem scratch_first (c : Dev nD) (i : grid0.Coords) (a2 : Memref sig .tc .vmem S1024x512 .bf16) (h2 : a2.IsWhole)
    (a3 : Memref sig .tc .vmem S1024x512 .bf16) (h3 : a3.IsWhole) (a4 : Memref sig .tc .vmem S1x1024 .f32) (h4 : a4.IsWhole)
    (a5 : Memref sig .tc .vmem S1x1024 .f32) (h5 : a5.IsWhole) (hc0 : cond0_0 i) (hc1 : ¬cond0_1 i)
    (x0 x1 : Vec F S1024x512 .bf16) :
    sout0_A_0 c i a2 h2 a3 h3 a4 h4 a5 h5 hc0 hc1 x0 x1 = k0_pay2 x1 x0 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1024) hz, View.readCov_unit_zero (S := S1x1024) _ hz]
  simp only [View.readAt_eq_ld, h2.read_unread, h3.read_unread, h5.read_unread, View.ld_unit_zero (S := S1024x512) hz,
    View.ld_unit_zero (S := S1x1024) hz]

/-- At a middle memory tile: one update of the row the point before left. -/
theorem scratch_middle (c : Dev nD) (i : grid0.Coords) (a2 : Memref sig .tc .vmem S1024x512 .bf16) (h2 : a2.IsWhole)
    (a3 : Memref sig .tc .vmem S1024x512 .bf16) (h3 : a3.IsWhole) (a4 : Memref sig .tc .vmem S1x1024 .f32) (h4 : a4.IsWhole)
    (a5 : Memref sig .tc .vmem S1x1024 .f32) (h5 : a5.IsWhole) (hc0 : ¬cond0_0 i) (hc1 : ¬cond0_1 i)
    (x0 x1 : Vec F S1024x512 .bf16) (xs0 : Vec F S1x1024 .f32) :
    sout0_B_0 c i a2 h2 a3 h3 a4 h4 a5 h5 hc0 hc1 x0 x1 xs0 = k0_pay2 x1 x0 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz]
  simp only [View.readAt_eq_ld, h2.read_unread, h3.read_unread, h5.read_unread, View.ld_unit_zero (S := S1024x512) hz,
    View.ld_unit_zero (S := S1x1024) hz]

/-- At the last memory tile the scratch is updated the same way … -/
theorem scratch_last (c : Dev nD) (i : grid0.Coords) (a2 : Memref sig .tc .vmem S1024x512 .bf16) (h2 : a2.IsWhole)
    (a3 : Memref sig .tc .vmem S1024x512 .bf16) (h3 : a3.IsWhole) (a4 : Memref sig .tc .vmem S1x1024 .f32) (h4 : a4.IsWhole)
    (a5 : Memref sig .tc .vmem S1x1024 .f32) (h5 : a5.IsWhole) (hc0 : ¬cond0_0 i) (hc1 : cond0_1 i)
    (x0 x1 : Vec F S1024x512 .bf16) (xs0 : Vec F S1x1024 .f32) :
    sout0_C_0 c i a2 h2 a3 h3 a4 h4 a5 h5 hc0 hc1 x0 x1 xs0 = k0_pay2 x1 x0 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S1024x512) hz,
    View.ld_unit_zero (S := S1x1024) hz]

/-- … and the output block receives the updated row. -/
theorem out_last (c : Dev nD) (i : grid0.Coords) (a2 : Memref sig .tc .vmem S1024x512 .bf16) (h2 : a2.IsWhole)
    (a3 : Memref sig .tc .vmem S1024x512 .bf16) (h3 : a3.IsWhole) (a4 : Memref sig .tc .vmem S1x1024 .f32) (h4 : a4.IsWhole)
    (a5 : Memref sig .tc .vmem S1x1024 .f32) (h5 : a5.IsWhole) (hc0 : ¬cond0_0 i) (hc1 : cond0_1 i)
    (x0 x1 : Vec F S1024x512 .bf16) (xs0 : Vec F S1x1024 .f32) :
    out0_C_2 c i a2 h2 a3 h3 a4 h4 a5 h5 hc0 hc1 x0 x1 xs0 = k0_pay2 x1 x0 xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz, View.readCov_unit_zero (S := S1x1024) _ hz]
  simp only [View.readAt_eq_ld, h2.read_unread, h3.read_unread, h5.read_unread, View.ld_unit_zero (S := S1024x512) hz,
    View.ld_unit_zero (S := S1x1024) hz]

end Cert.KernelIdeal.Pieces

end
-- ==== Proof.MaxSim.lean ====
/-
  The greatest inner product of one row with the rows of another matrix, over the extended reals.

  For matrices `f` and `g` with rows of length `D`, `rowDot f g n r = ∑ k, f (n, k) * g (r, k)` and
  `best f g n` is the supremum of `rowDot f g n r` over all rows `r` of `g`. A maximum is carried here by its
  universal property — `v ≤ z` exactly when every term is `≤ z` — which determines `v` and is indifferent to the
  order and the grouping in which a program folds `max`: a column maximum of a tile, a running maximum over
  tiles from `-∞`, and a one-axis maximum over a whole matrix all satisfy it over their own index ranges.
-/
import Idealize.ShloMosaic.PureOps.Ideal.Laws
import Idealize.ShloMosaic.Lib.ValueIdx

noncomputable section

open scoped BigOperators

namespace Cert.MaxSim

open Idealize.ShloMosaic Idealize.ShloMosaic.ValueIdx

/-! ## The specification -/

/-- The inner product of row `n` of `f` with row `r` of `g`. -/
def rowDot {N M D : Nat} (f : (⟨2, ![N, D]⟩ : Shape).Idx → EReal) (g : (⟨2, ![M, D]⟩ : Shape).Idx → EReal)
    (n : Fin N) (r : Fin M) : EReal :=
  ∑ k : Fin D, f (ix2 n k) * g (ix2 r k)

/-- The greatest inner product of row `n` of `f` with a row of `g` (`-∞` when `g` has no row). -/
def best {N M D : Nat} (f : (⟨2, ![N, D]⟩ : Shape).Idx → EReal) (g : (⟨2, ![M, D]⟩ : Shape).Idx → EReal)
    (n : Fin N) : EReal :=
  Finset.univ.sup fun r : Fin M => rowDot f g n r

/-- Its universal property. -/
theorem best_le_iff {N M D : Nat} (f : (⟨2, ![N, D]⟩ : Shape).Idx → EReal) (g : (⟨2, ![M, D]⟩ : Shape).Idx → EReal)
    (n : Fin N) (z : EReal) : best f g n ≤ z ↔ ∀ r : Fin M, rowDot f g n r ≤ z := by
  unfold best
  rw [Finset.sup_le_iff]
  exact ⟨fun h r => h r (Finset.mem_univ r), fun h r _ => h r⟩

/-- A value with that universal property is `best`. -/
theorem eq_best_of_le_iff {N M D : Nat} (f : (⟨2, ![N, D]⟩ : Shape).Idx → EReal) (g : (⟨2, ![M, D]⟩ : Shape).Idx → EReal)
    (n : Fin N) (v : EReal) (h : ∀ z, v ≤ z ↔ ∀ r : Fin M, rowDot f g n r ≤ z) : v = best f g n :=
  eq_of_forall_ge_iff fun z => (h z).trans (best_le_iff f g n z).symm

/-- The inner product with the factors in the other order. -/
theorem rowDot_comm {N M D : Nat} (f : (⟨2, ![N, D]⟩ : Shape).Idx → EReal) (g : (⟨2, ![M, D]⟩ : Shape).Idx → EReal)
    (n : Fin N) (r : Fin M) : (∑ k : Fin D, g (ix2 r k) * f (ix2 n k)) = rowDot f g n r :=
  Finset.sum_congr rfl fun k _ => mul_comm _ _

/-! ## The word of `-∞` -/

/-- The f32 pattern `0xFF800000` is `-∞`, the least extended real. -/
theorem ofBits_neg_inf : Ideal.ofBits .f32 0xFF800000#32 = (⊥ : EReal) := by
  simp [Ideal.ofBits, Ideal.ieee]

/-! ## A fold of `max` from `-∞` -/

/-- A fold of `max` from `-∞` over a finite set is below `z` exactly when every term is. -/
theorem fold_max_bot_le_iff {ι : Type*} (s : Finset ι) (x : ι → EReal) (z : EReal) :
    s.fold max (⊥ : EReal) x ≤ z ↔ ∀ i ∈ s, x i ≤ z := by
  rw [Finset.fold_max_le]
  exact ⟨fun h => h.2, fun h => ⟨bot_le, h⟩⟩

/-! ## The two one-axis maxima of a matrix, read by their universal property -/

/-- Over a rank-2 shape, the source index above column `q` with row coordinate `p` is `(p, q)`. -/
theorem lift_rows {A B : Nat} (h : (⟨2, ![A, B]⟩ : Shape).Reduces [0] ⟨1, ![B]⟩) (q : Fin B)
    (p : Fin ((⟨2, ![A, B]⟩ : Shape).size 0)) : h.lift (ix1 q) p = ix2 (n0 := A) (n1 := B) p q := by
  funext c
  apply Fin.ext
  rw [Shape.Reduces.lift_val]
  unfold Shape.Reduces.liftVal
  match c with
  | ⟨0, _⟩ => simp
  | ⟨1, _⟩ => simp

/-- Over a rank-2 shape, the source index beside row `n` with column coordinate `r` is `(n, r)`. -/
theorem lift_cols {A B : Nat} (h : (⟨2, ![A, B]⟩ : Shape).Reduces [1] ⟨1, ![A]⟩) (n : Fin A)
    (r : Fin ((⟨2, ![A, B]⟩ : Shape).size 1)) : h.lift (ix1 n) r = ix2 (n0 := A) (n1 := B) n r := by
  funext c
  apply Fin.ext
  rw [Shape.Reduces.lift_val]
  unfold Shape.Reduces.liftVal
  match c with
  | ⟨0, _⟩ => simp
  | ⟨1, _⟩ => simp

/-- A column maximum from `-∞` (a `multi_reduction <maximumf>` over the rows of a matrix) is below `z` exactly when
    every entry of the column is. -/
theorem colMax_le_iff {A B : Nat} (src : FVec Ideal ⟨2, ![A, B]⟩ .f32)
    (h : (⟨2, ![A, B]⟩ : Shape).Reduces [0] ⟨1, ![B]⟩) (hφ : FKind.Formats .f32)
    (hacc : (0xFF800000#32 : BitVec 32) = FKind.maximumf.neutral .f32 hφ) (q : Fin B) (z : EReal) :
    multiReduction .maximumf [0] ⟨1, ![B]⟩ src 0xFF800000#32 h hφ hacc (ix1 q) ≤ z
      ↔ ∀ p : Fin A, src (ix2 p q) ≤ z := by
  rw [Ideal.multiReduction_maximumf_single]
  show (Finset.univ : Finset (Fin ((⟨2, ![A, B]⟩ : Shape).size 0))).fold max (Ideal.ofBits .f32 0xFF800000#32)
      (src ∘ h.lift (ix1 q)) ≤ z ↔ _
  rw [ofBits_neg_inf, fold_max_bot_le_iff]
  constructor
  · intro hh p
    have h1 : src (h.lift (ix1 q) p) ≤ z := hh p (Finset.mem_univ _)
    exact le_of_eq_of_le (congrArg src (lift_rows h q p)).symm h1
  · intro hh p _
    exact le_of_eq_of_le (congrArg src (lift_rows h q p)) (hh p)

/-- A row maximum from `-∞` (a one-operand `reduce` with a `maximum` body over the columns of a matrix, its initial
    value `-∞`) is below `z` exactly when every entry of the row is. -/
theorem rowMax_le_iff {A B : Nat} (x : (⟨2, ![A, B]⟩ : Shape).Idx → EReal) (init : (⟨0, ![]⟩ : Shape).Idx → EReal)
    (hinit : ∀ i, init i = ⊥)
    (h' : (⟨2, ![A, B]⟩ : Shape).ReducesTo [1] ⟨1, ![A]⟩) (h : (⟨2, ![A, B]⟩ : Shape).Reduces [1] ⟨1, ![A]⟩)
    (hu : 0 < (⟨0, ![]⟩ : Shape).numel) (n : Fin A) (z : EReal) :
    Host.reduce (FloatOps.maximumf (F := Ideal) (φ := .f32)) x init h' hu (ix1 n) ≤ z
      ↔ ∀ r : Fin B, x (ix2 n r) ≤ z := by
  rw [Host.reduce_eq_fold_single _ x init h' h hu]
  show (Finset.univ : Finset (Fin ((⟨2, ![A, B]⟩ : Shape).size 1))).fold max (init _) (x ∘ h.lift (ix1 n)) ≤ z ↔ _
  rw [hinit, fold_max_bot_le_iff]
  constructor
  · intro hh r
    have h1 : x (h.lift (ix1 n) r) ≤ z := hh r (Finset.mem_univ _)
    exact le_of_eq_of_le (congrArg x (lift_cols h n r)).symm h1
  · intro hh r _
    exact le_of_eq_of_le (congrArg x (lift_cols h n r)) (hh r)

/-! ## Rows, tile by tile -/

/-- The rows below the end of tile `j` (tiles of `T` rows) are the rows below its start and the rows of the tile. -/
theorem forall_lt_succ_tile (T : Nat) (P : Nat → Prop) (j : Nat) :
    (∀ r, r < (j + 1) * T → P r) ↔ (∀ r, r < j * T → P r) ∧ ∀ p, p < T → P (j * T + p) := by
  constructor
  · intro h
    refine ⟨fun r hr => h r (by rw [Nat.add_mul]; omega), fun p hp => h _ (by rw [Nat.add_mul]; omega)⟩
  · rintro ⟨h1, h2⟩ r hr
    by_cases hlt : r < j * T
    · exact h1 r hlt
    · have := h2 (r - j * T) (by rw [Nat.add_mul] at hr; omega)
      rwa [show j * T + (r - j * T) = r by omega] at this

/-- No row lies below the start of the first tile. -/
theorem forall_lt_zero_tile (T : Nat) (P : Nat → Prop) : (∀ r, r < 0 * T → P r) ↔ True := by
  simp

end Cert.MaxSim

end
-- ==== Proof.Tile.lean ====
/-
  One tile's update of the running maxima, read at an entry over the extended reals.

  The tile product of a memory block `g` (1024 rows) and the transposed feature block `f` (1024 rows) has, at
  `(p, q)`, the inner product `∑ k, g (p, k) * f (q, k)`: the matrix unit's product into a zero accumulator is that
  sum over the one contracted axis, and the transpose reads `f` with its coordinates exchanged. The update replaces
  entry `q` of the row of running maxima by the maximum of itself and of column `q` of the tile product, so the new
  entry is below `z` exactly when the old one is and every inner product of the column is.
-/
import proofs.«179216_j46334107189284_1_alg».proof.Proof.Gen.KernelIdeal.Skeleton
import proofs.«179216_j46334107189284_1_alg».proof.Proof.MaxSim
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## The tile product at an entry -/

/-- The left operand is read on its first axis at the entry's row … -/
theorem lhs_axis0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
/-- … and on its second at the contraction's coordinate; -/
theorem lhs_axis1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
/-- the right operand on its first axis at the contraction's coordinate … -/
theorem rhs_axis0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
/-- … and on its second at the entry's column. -/
theorem rhs_axis1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- The product of a 1024 × 512 block and a 512 × 1024 block into a zero accumulator, at `(p, q)`: the sum over the
    contracted axis. -/
theorem product_apply (l : FVec Ideal S1024x512 .bf16) (r : FVec Ideal S512x1024 .bf16) (p q : Fin 1024) :
    matmul dot_S1024x512_S512x1024_S1024x1024_1_0_0_1_n_n none l r (constant S1024x1024 .f32 0x00000000#32) (ix2 p q)
      = ∑ k : Fin 512, l (ix2 p k) * r (ix2 k q) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k := funext fun a => Fin.ext (by
    match a with
    | ⟨0, _⟩ => exact lhs_axis0 _ _
    | ⟨1, _⟩ => exact (lhs_axis1 _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q := funext fun a => Fin.ext (by
    match a with
    | ⟨0, _⟩ => exact (rhs_axis0 _ _).trans hk
    | ⟨1, _⟩ => exact rhs_axis1 _ _)
  rw [el, er]

/-- The transposed feature block at `(k, q)` is the block at `(q, k)`. -/
theorem transposed_apply (f : FVec Ideal S1024x512 .bf16) (k : Fin 512) (q : Fin 1024) :
    transpose S512x1024 [1, 0] f transposes_S1024x512_p1_0_S512x1024 (ix2 k q) = f (ix2 q k) :=
  transpose_apply _ f _ (ix2 k q) (ix2 q k) (fun b => match b with
    | ⟨0, _⟩ => rfl
    | ⟨1, _⟩ => rfl)

/-- A vector of 1024 column maxima viewed as a row: entry `(0, q)` is entry `q`. -/
theorem asRow_apply (v : FVec Ideal S1024 .f32) (q : Fin 1024) :
    shapeCast S1x1024 v shapeCasts_S1024_S1x1024 (ix2 (0 : Fin 1) q) = v (ix1 q) :=
  shapeCast_apply v _ (ix2 (0 : Fin 1) q) (ix1 q) (by
    rw [Shape.rowMajor_val_one, Shape.rowMajor_val_two]
    show q.val = 0 * 1024 + q.val
    omega)

/-! ## The update of one entry of the row of running maxima -/

/-- The reset row holds `-∞` everywhere. -/
theorem reset_apply (i : S1x1024.Idx) : k0_pay1 (F := Ideal) i = (⊥ : EReal) := by
  unfold k0_pay1
  simp only [shapeCast_self]
  exact Cert.MaxSim.ofBits_neg_inf

/-- The updated entry `q` is below `z` exactly when the entry it replaces is and every inner product of row `p` of the
    memory block `g` with row `q` of the feature block `f` is. -/
theorem update_le_iff (g f : Vec Ideal S1024x512 .bf16) (acc : Vec Ideal S1x1024 .f32) (q : Fin 1024) (z : EReal) :
    k0_pay2 (F := Ideal) g f acc (ix2 (0 : Fin 1) q) ≤ z
      ↔ acc (ix2 (0 : Fin 1) q) ≤ z ∧ ∀ p : Fin 1024, (∑ k : Fin 512, g (ix2 p k) * f (ix2 q k)) ≤ z := by
  unfold k0_pay2
  simp only [shapeCast_self]
  rw [maximumf_apply, max_le_iff, asRow_apply]
  refine and_congr Iff.rfl ((Cert.MaxSim.colMax_le_iff (A := 1024) (B := 1024) _ _ _ _ q z).trans ?_)
  refine forall_congr' fun p => ?_
  rw [product_apply]
  exact iff_of_eq (congrArg (· ≤ z) (Finset.sum_congr rfl fun k _ =>
    congrArg (g (ix2 p k) * ·) (transposed_apply f k q)))

end Cert.KernelIdeal.Tile

end
-- ==== Proof.Running.lean ====
/-
  The running maximum across the memory tiles of one feature tile.

  The grid has 8 × 8 points, the memory tile moving fastest: point `n` works on feature tile `n / 8` and memory
  tile `n % 8`. The feature window's block at the point holds rows `(n / 8) * 1024 + q` of the normalized feature
  array, the memory window's block rows `(n % 8) * 1024 + p` of the normalized memory array. By induction on the point,
  after point `n` entry `q` of the scratch row is below `z` exactly when, for every memory row `r` below
  `(n % 8 + 1) * 1024`, the inner product of memory row `r` with feature row `(n / 8) * 1024 + q` is: the reset
  starts every feature tile from `-∞`, and each point adds its own 1024 memory rows.
-/
import proofs.«179216_j46334107189284_1_alg».proof.Proof.Gen.KernelIdeal.Frame
import proofs.«179216_j46334107189284_1_alg».proof.Proof.Pieces
import proofs.«179216_j46334107189284_1_alg».proof.Proof.Tile
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Running

open Cert.KernelIdeal Cert.KernelIdeal.Gen Idealize.ShloMosaic.ValueIdx
open Cert.MaxSim (rowDot)

variable (m : (ℓ : Loc nD τ sig) → Buf (Elt Ideal) ℓ)

/-! ## The arrays and the blocks, at their literal types -/

/-- The normalized feature array, as the region finds it. -/
abbrev farr (c : Dev nD) : Vec Ideal S8192x512 .bf16 := V m c main_v8
/-- The normalized memory array, as the region finds it. -/
abbrev garr (c : Dev nD) : Vec Ideal S8192x512 .bf16 := V m c main_v11
/-- The feature window's block at a point. -/
abbrev fblk (c : Dev nD) (t : Fin cfg0.N) : Vec Ideal S1024x512 .bf16 := iblk m c 0 t
/-- The memory window's block at a point. -/
abbrev gblk (c : Dev nD) (t : Fin cfg0.N) : Vec Ideal S1024x512 .bf16 := iblk m c 1 t

/-- The feature row under entry `q` of the point's tile. -/
def frow (t : Fin cfg0.N) (q : Fin 1024) : Fin 8192 :=
  ⟨t.val / 8 * 1024 + q.val, by have := t.isLt; have hN : cfg0.N = 64 := N_0; have := q.isLt; omega⟩
/-- The memory row `p` of the point's tile. -/
def grow (t : Fin cfg0.N) (p : Fin 1024) : Fin 8192 :=
  ⟨t.val % 8 * 1024 + p.val, by have := p.isLt; omega⟩

/-- The feature window's block index at a point: the feature tile, and the one column block. -/
theorem findex : ∀ t : Fin cfg0.N, win0_0.index t 0 = t.val / 8 ∧ win0_0.index t 1 = 0 :=
  (by decide +kernel : ∀ t : Fin grid0.N, win0_0.index t 0 = t.val / 8 ∧ win0_0.index t 1 = 0)
/-- The memory window's block index at a point: the memory tile, and the one column block. -/
theorem gindex : ∀ t : Fin cfg0.N, win0_1.index t 0 = t.val % 8 ∧ win0_1.index t 1 = 0 :=
  (by decide +kernel : ∀ t : Fin grid0.N, win0_1.index t 0 = t.val % 8 ∧ win0_1.index t 1 = 0)

/-- Row `q` of the feature block is row `frow t q` of the feature array. -/
theorem fblk_apply (c : Dev nD) (t : Fin cfg0.N) (q : Fin 1024) (k : Fin 512) :
    fblk m c t (ix2 q k) = farr m c (ix2 (frow t q) k) := by
  show iblk m c 0 t (ix2 q k) = V m c main_v8 (ix2 (frow t q) k)
  unfold iblk
  rw [View.read_apply]
  show V m c main_v8 _ = V m c main_v8 _
  congr 1
  funext a
  apply Fin.ext
  match a with
  | ⟨0, _⟩ => show win0_0.index t 0 * 1024 + 1 * q.val = t.val / 8 * 1024 + q.val; rw [(findex t).1]; omega
  | ⟨1, _⟩ => show win0_0.index t 1 * 512 + 1 * k.val = k.val; rw [(findex t).2]; omega

/-- Row `p` of the memory block is row `grow t p` of the memory array. -/
theorem gblk_apply (c : Dev nD) (t : Fin cfg0.N) (p : Fin 1024) (k : Fin 512) :
    gblk m c t (ix2 p k) = garr m c (ix2 (grow t p) k) := by
  show iblk m c 1 t (ix2 p k) = V m c main_v11 (ix2 (grow t p) k)
  unfold iblk
  rw [View.read_apply]
  show V m c main_v11 _ = V m c main_v11 _
  congr 1
  funext a
  apply Fin.ext
  match a with
  | ⟨0, _⟩ => show win0_1.index t 0 * 1024 + 1 * p.val = t.val % 8 * 1024 + p.val; rw [(gindex t).1]; omega
  | ⟨1, _⟩ => show win0_1.index t 1 * 512 + 1 * k.val = k.val; rw [(gindex t).2]; omega

/-- An inner product of two block rows is the inner product of the two array rows. -/
theorem tile_dot (c : Dev nD) (t : Fin cfg0.N) (p q : Fin 1024) :
    (∑ k : Fin 512, gblk m c t (ix2 p k) * fblk m c t (ix2 q k)) = rowDot (garr m c) (farr m c) (grow t p) (frow t q) := by
  unfold rowDot
  exact Finset.sum_congr rfl fun k _ => by rw [gblk_apply, fblk_apply]

/-! ## One point's update -/

/-- The inner products of the feature row under entry `q` with the memory rows below `b` are all below `z`. -/
def Below (c : Dev nD) (t : Fin cfg0.N) (q : Fin 1024) (z : EReal) (b : Nat) : Prop :=
  ∀ r, r < b → ∀ hr : r < 8192, rowDot (garr m c) (farr m c) ⟨r, hr⟩ (frow t q) ≤ z

/-- The point's update of a row `old`: entry `q` afterwards is below `z` exactly when it was and the point's own 1024
    memory rows are. -/
theorem step_le_iff (c : Dev nD) (t : Fin cfg0.N) (old : Vec Ideal S1x1024 .f32) (q : Fin 1024) (z : EReal) :
    k0_pay2 (F := Ideal) (gblk m c t) (fblk m c t) old (ix2 (0 : Fin 1) q) ≤ z
      ↔ old (ix2 (0 : Fin 1) q) ≤ z
        ∧ ∀ p, p < 1024 → ∀ hr : t.val % 8 * 1024 + p < 8192,
            rowDot (garr m c) (farr m c) ⟨t.val % 8 * 1024 + p, hr⟩ (frow t q) ≤ z := by
  refine (Cert.KernelIdeal.Tile.update_le_iff (gblk m c t) (fblk m c t) old q z).trans (and_congr Iff.rfl ?_)
  constructor
  · intro h p hp hr
    have h1 := h ⟨p, hp⟩
    rw [tile_dot] at h1
    exact h1
  · intro h p
    rw [tile_dot]
    exact h p.val p.isLt (grow t p).isLt

/-! ## What the scratch holds after each point, case by case -/

/-- After a point on the first memory tile: the reset row, updated. -/
theorem after_first (c : Dev nD) (t : Fin cfg0.N) (h0 : t.val % 8 = 0) (h1 : ¬t.val % 8 = 7) :
    (outsAt0 m c t.val t.isLt).2 = k0_pay2 (gblk m c t) (fblk m c t) (k0_pay1 (F := Ideal)) := by
  rw [outsAt0_A m c t h0 h1]
  dsimp only
  exact Cert.KernelIdeal.Pieces.scratch_first (F := Ideal) c (grid0.coords t) (ms0_0 t) (hs0_0 t) (ms0_1 t) (hs0_1 t) (ms0_2 t) (hs0_2 t)
    scM0_0 (Memref.isWhole_whole _) ((hcond0_0 t).mpr h0) (fun h => h1 ((hcond0_1 t).mp h)) (fblk m c t) (gblk m c t)

/-- After a point on a middle memory tile: the row the point before left, updated. -/
theorem after_middle (c : Dev nD) (t : Fin cfg0.N) (h0 : ¬t.val % 8 = 0) (h1 : ¬t.val % 8 = 7) :
    (outsAt0 m c t.val t.isLt).2
      = k0_pay2 (gblk m c t) (fblk m c t) (outsAt0 m c (t.val - 1) (Nat.lt_of_le_of_lt (Nat.sub_le _ _) t.isLt)).2 := by
  rw [outsAt0_B m c t h0 h1]
  dsimp only
  exact Cert.KernelIdeal.Pieces.scratch_middle (F := Ideal) c (grid0.coords t) (ms0_0 t) (hs0_0 t) (ms0_1 t) (hs0_1 t) (ms0_2 t) (hs0_2 t)
    scM0_0 (Memref.isWhole_whole _) (fun h => h0 ((hcond0_0 t).mp h)) (fun h => h1 ((hcond0_1 t).mp h)) (fblk m c t) (gblk m c t)
    (outsAt0 m c (t.val - 1) (Nat.lt_of_le_of_lt (Nat.sub_le _ _) t.isLt)).2

/-- After a point on the last memory tile: the same in the scratch … -/
theorem after_last (c : Dev nD) (t : Fin cfg0.N) (h0 : ¬t.val % 8 = 0) (h1 : t.val % 8 = 7) :
    (outsAt0 m c t.val t.isLt).2
      = k0_pay2 (gblk m c t) (fblk m c t) (outsAt0 m c (t.val - 1) (Nat.lt_of_le_of_lt (Nat.sub_le _ _) t.isLt)).2 := by
  rw [outsAt0_C m c t h0 h1]
  dsimp only
  exact Cert.KernelIdeal.Pieces.scratch_last (F := Ideal) c (grid0.coords t) (ms0_0 t) (hs0_0 t) (ms0_1 t) (hs0_1 t) (ms0_2 t) (hs0_2 t)
    scM0_0 (Memref.isWhole_whole _) (fun h => h0 ((hcond0_0 t).mp h)) ((hcond0_1 t).mpr h1) (fblk m c t) (gblk m c t)
    (outsAt0 m c (t.val - 1) (Nat.lt_of_le_of_lt (Nat.sub_le _ _) t.isLt)).2

/-- … and the output block holds the updated row. -/
theorem out_after_last (c : Dev nD) (t : Fin cfg0.N) (h0 : ¬t.val % 8 = 0) (h1 : t.val % 8 = 7) :
    (outsAt0 m c t.val t.isLt).1 = (outsAt0 m c t.val t.isLt).2 := by
  rw [outsAt0_C m c t h0 h1]
  dsimp only
  exact (Cert.KernelIdeal.Pieces.out_last (F := Ideal) c (grid0.coords t) (ms0_0 t) (hs0_0 t) (ms0_1 t) (hs0_1 t) (ms0_2 t) (hs0_2 t)
    scM0_0 (Memref.isWhole_whole _) (fun h => h0 ((hcond0_0 t).mp h)) ((hcond0_1 t).mpr h1) (fblk m c t) (gblk m c t)
    (outsAt0 m c (t.val - 1) (Nat.lt_of_le_of_lt (Nat.sub_le _ _) t.isLt)).2).trans
    (Cert.KernelIdeal.Pieces.scratch_last (F := Ideal) c (grid0.coords t) (ms0_0 t) (hs0_0 t) (ms0_1 t) (hs0_1 t) (ms0_2 t) (hs0_2 t)
    scM0_0 (Memref.isWhole_whole _) (fun h => h0 ((hcond0_0 t).mp h)) ((hcond0_1 t).mpr h1) (fblk m c t) (gblk m c t)
    (outsAt0 m c (t.val - 1) (Nat.lt_of_le_of_lt (Nat.sub_le _ _) t.isLt)).2).symm

/-! ## The invariant -/

/-- The feature row under entry `q` does not change within a feature tile. -/
theorem frow_succ (n : ℕ) (h : n + 1 < cfg0.N) (h0 : ¬(n + 1) % 8 = 0) (q : Fin 1024) :
    frow ⟨n + 1, h⟩ q = frow ⟨n, Nat.lt_of_succ_lt h⟩ q := by
  apply Fin.ext
  show (n + 1) / 8 * 1024 + q.val = n / 8 * 1024 + q.val
  have : (n + 1) / 8 = n / 8 := by omega
  rw [this]

/-- After point `n`, entry `q` of the scratch row is below `z` exactly when the inner products of its feature row with
    the memory rows of the tiles up to the point's are. -/
theorem scratch_le_iff (c : Dev nD) : ∀ (n : ℕ) (h : n < cfg0.N) (q : Fin 1024) (z : EReal),
    (outsAt0 m c n h).2 (ix2 (0 : Fin 1) q) ≤ z ↔ Below m c ⟨n, h⟩ q z ((n % 8 + 1) * 1024) := by
  intro n
  induction n with
  | zero =>
    intro h q z
    rw [show (outsAt0 m c 0 h).2 = _ from after_first m c ⟨0, h⟩ rfl (by show ¬(0 : ℕ) % 8 = 7; decide)]
    refine (step_le_iff m c ⟨0, h⟩ _ q z).trans ?_
    refine Iff.trans ?_ (Cert.MaxSim.forall_lt_succ_tile 1024
      (fun r => ∀ hr : r < 8192, rowDot (garr m c) (farr m c) ⟨r, hr⟩ (frow ⟨0, h⟩ q) ≤ z) (0 % 8)).symm
    refine and_congr ?_ Iff.rfl
    constructor
    · intro _ r hr; exact absurd hr (by omega)
    · intro _; rw [Cert.KernelIdeal.Tile.reset_apply]; exact bot_le
  | succ n ih =>
    intro h q z
    have hN : cfg0.N = 64 := N_0
    by_cases h0 : (n + 1) % 8 = 0
    · rw [show (outsAt0 m c (n + 1) h).2 = _ from after_first m c ⟨n + 1, h⟩ h0 (by show ¬(n + 1) % 8 = 7; omega)]
      refine (step_le_iff m c ⟨n + 1, h⟩ _ q z).trans ?_
      refine Iff.trans ?_ (Cert.MaxSim.forall_lt_succ_tile 1024
        (fun r => ∀ hr : r < 8192, rowDot (garr m c) (farr m c) ⟨r, hr⟩ (frow ⟨n + 1, h⟩ q) ≤ z) ((n + 1) % 8)).symm
      refine and_congr ?_ Iff.rfl
      constructor
      · intro _ r hr; rw [h0] at hr; exact absurd hr (by omega)
      · intro _; rw [Cert.KernelIdeal.Tile.reset_apply]; exact bot_le
    · have hstep : (outsAt0 m c (n + 1) h).2
          = k0_pay2 (gblk m c ⟨n + 1, h⟩) (fblk m c ⟨n + 1, h⟩) (outsAt0 m c n (Nat.lt_of_succ_lt h)).2 := by
        by_cases h1 : (n + 1) % 8 = 7
        · exact after_last m c ⟨n + 1, h⟩ h0 h1
        · exact after_middle m c ⟨n + 1, h⟩ h0 h1
      rw [hstep]
      refine (step_le_iff m c ⟨n + 1, h⟩ _ q z).trans ?_
      refine Iff.trans ?_ (Cert.MaxSim.forall_lt_succ_tile 1024
        (fun r => ∀ hr : r < 8192, rowDot (garr m c) (farr m c) ⟨r, hr⟩ (frow ⟨n + 1, h⟩ q) ≤ z) ((n + 1) % 8)).symm
      refine and_congr ?_ Iff.rfl
      have hm : (n + 1) % 8 * 1024 = (n % 8 + 1) * 1024 := by
        have : (n + 1) % 8 = n % 8 + 1 := by omega
        rw [this]
      rw [ih (Nat.lt_of_succ_lt h) q z, hm]
      unfold Below
      rw [frow_succ n h h0 q]

end Cert.KernelIdeal.Running

end
-- ==== Proof.Final.lean ====
/-
  What the kernel's output array holds after the run.

  At the last memory tile of a feature tile all 8192 memory rows have been seen, so entry `q` of the row of running
  maxima is the greatest inner product of feature row `(n / 8) * 1024 + q` with a memory row, and that row is what the
  point writes back as block `(0, n / 8)` of the 1 × 8192 output. The eight written blocks tile the output, which
  therefore ends holding, at `(0, n)`, the greatest inner product of feature row `n` with a memory row.
-/
import proofs.«179216_j46334107189284_1_alg».proof.Proof.Gen.KernelIdeal.Frame
import proofs.«179216_j46334107189284_1_alg».proof.Proof.Running
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Final

open Cert.KernelIdeal Cert.KernelIdeal.Gen Idealize.ShloMosaic.ValueIdx Cert.KernelIdeal.Running
open Cert.MaxSim (rowDot best)

variable (m : (ℓ : Loc nD τ sig) → Buf (Elt Ideal) ℓ)

/-- An inner product does not depend on which row is named first. -/
theorem rowDot_swap (c : Dev nD) (r n : Fin 8192) :
    rowDot (garr m c) (farr m c) r n = rowDot (farr m c) (garr m c) n r :=
  Cert.MaxSim.rowDot_comm (farr m c) (garr m c) n r

/-- After the last memory tile, entry `q` of the row is the greatest inner product of its feature row with a memory
    row: all eight tiles' rows are all the rows. -/
theorem last_entry (c : Dev nD) (t : Fin cfg0.N) (h7 : t.val % 8 = 7) (q : Fin 1024) :
    (outsAt0 m c t.val t.isLt).2 (ix2 (0 : Fin 1) q) = best (farr m c) (garr m c) (frow t q) := by
  refine Cert.MaxSim.eq_best_of_le_iff (farr m c) (garr m c) (frow t q) _ fun z => ?_
  rw [scratch_le_iff m c t.val t.isLt q z, h7]
  unfold Below
  constructor
  · intro h r
    have h1 := h r.val (by have := r.isLt; omega) r.isLt
    exact le_of_eq_of_le (rowDot_swap m c r (frow t q)).symm h1
  · intro h r _ hr
    exact le_of_eq_of_le (rowDot_swap m c ⟨r, hr⟩ (frow t q)) (h ⟨r, hr⟩)

/-- The whole row after the last memory tile. -/
theorem last_row (c : Dev nD) (t : Fin cfg0.N) (h7 : t.val % 8 = 7) :
    (outsAt0 m c t.val t.isLt).2
      = fun y : S1x1024.Idx => best (farr m c) (garr m c) (frow t ⟨(y 1).val, idx2_lt1 y⟩) := by
  funext y
  obtain ⟨a, q, rfl⟩ : ∃ (a : Fin 1) (q : Fin 1024), y = ix2 a q := ⟨y 0, y 1, eq_ix2 y⟩
  obtain rfl : a = 0 := Subsingleton.elim _ _
  exact last_entry m c t h7 q

/-! ## The output array -/

/-- The feature row an entry of the output belongs to. -/
def col (i : S1x8192.Idx) : Fin 8192 := ⟨(i 1).val, idx2_lt1 i⟩

/-- What the output array ends holding: at `(0, n)` the greatest inner product of feature row `n` with a memory row. -/
def sims (c : Dev nD) : S1x8192.Idx → EReal := fun i => best (farr m c) (garr m c) (col i)

/-- The output window's block index at a point: the one row block, and the feature tile. -/
theorem oindex : ∀ t : Fin cfg0.N, win0_2.index t 0 = 0 ∧ win0_2.index t 1 = t.val / 8 :=
  (by decide +kernel : ∀ t : Fin grid0.N, win0_2.index t 0 = 0 ∧ win0_2.index t 1 = t.val / 8)

/-- What a writing point writes back is its block of `sims`. -/
theorem flushed_eq (c : Dev nD) (t : Fin cfg0.N) (hf : (cfg0.win 2).flush t = true) :
    (dats m 0 c).flushed 2 t = ((cfg0.win 2).blk t).view.read (Elt Ideal) (sims m c) := by
  have h7 : t.val % 8 = 7 := (flush0_2 t).mp hf
  show (cfg0.win 2).cut (grid0.coords t) ((dats m 0 c).after 2 t) = _
  rw [after0_2, out_after_last m c t (by omega) h7, last_row m c t h7]
  funext j
  rw [View.read_apply]
  show best (farr m c) (garr m c) (frow t ⟨(j 1).val, _⟩)
    = best (farr m c) (garr m c) (col (((cfg0.win 2).blk t).view.emb j))
  refine congrArg (best (farr m c) (garr m c)) (Fin.ext ?_)
  show t.val / 8 * 1024 + (j 1).val = win0_2.index t 1 * 1024 + 1 * (j 1).val
  rw [(oindex t).2]
  omega

/-- An index of the output is in a point's block exactly when each coordinate is in the block's range. -/
theorem mem_blk (t : Fin cfg0.N) (i : S1x8192.Idx) :
    i ∈ ((cfg0.win 2).blk t).view.set
      ↔ ∀ a : Fin 2, win0_2.index t a * S1x1024.size a ≤ (i a).val ∧ (i a).val < win0_2.index t a * S1x1024.size a + S1x1024.size a := by
  show i ∈ ((View.whole main_v12).slice (win0_2.rect t)).set ↔ _
  rw [View.set_slice_whole, Rect.mem_set_unit]
  exact Iff.rfl

/-- Every index of the output is in the block some writing point writes: the last point of its feature tile. -/
theorem cover (i : S1x8192.Idx) :
    ∃ t : Fin cfg0.N, (cfg0.win 2).flush t = true ∧ i ∈ ((cfg0.win 2).blk t).view.set := by
  have hi0 : (i 0).val < 1 := idx2_lt0 i
  have hi1 : (i 1).val < 8192 := idx2_lt1 i
  have hN : cfg0.N = 64 := N_0
  have hlt : (i 1).val / 1024 * 8 + 7 < cfg0.N := by omega
  obtain ⟨e0, e1⟩ := oindex ⟨(i 1).val / 1024 * 8 + 7, hlt⟩
  have e1' : win0_2.index ⟨(i 1).val / 1024 * 8 + 7, hlt⟩ 1 = ((i 1).val / 1024 * 8 + 7) / 8 := e1
  refine ⟨⟨(i 1).val / 1024 * 8 + 7, hlt⟩, (flush0_2 _).mpr (by show ((i 1).val / 1024 * 8 + 7) % 8 = 7; omega), ?_⟩
  rw [mem_blk]
  intro a
  match a with
  | ⟨0, _⟩ =>
    show win0_2.index ⟨(i 1).val / 1024 * 8 + 7, hlt⟩ 0 * 1 ≤ (i 0).val
      ∧ (i 0).val < win0_2.index ⟨(i 1).val / 1024 * 8 + 7, hlt⟩ 0 * 1 + 1
    rw [e0]; omega
  | ⟨1, _⟩ =>
    show win0_2.index ⟨(i 1).val / 1024 * 8 + 7, hlt⟩ 1 * 1024 ≤ (i 1).val
      ∧ (i 1).val < win0_2.index ⟨(i 1).val / 1024 * 8 + 7, hlt⟩ 1 * 1024 + 1024
    rw [e1']; omega

/-- The output array after the run. -/
theorem final (c : Dev nD) : (dats m 0 c).arrAt 2 cfg0.N = sims m c :=
  (dats m 0 c).arrAt_eq_of_cover 2 (sims m c) (flushed_eq m c) cover

end Cert.KernelIdeal.Final

end
-- ==== Proof.RefSims.lean ====
/-
  The reference's vector of greatest similarities.

  The reference multiplies the normalized feature matrix by the transposed normalized memory matrix — entry `(n, r)` of
  the product is the inner product of feature row `n` with memory row `r` — and takes the maximum of each row of the
  product from `-∞`. Entry `n` of the result is therefore the greatest inner product of feature row `n` with a memory
  row.
-/
import proofs.«179216_j46334107189284_1_alg».proof.Proof.Gen.ReferenceIdeal.Read
import proofs.«179216_j46334107189284_1_alg».proof.Proof.MaxSim

noncomputable section

open scoped BigOperators

namespace Cert.ReferenceIdeal.Sims

open Cert.ReferenceIdeal Cert.ReferenceIdeal.Gen Cert.ReferenceIdeal.Read Idealize.ShloMosaic Idealize.ShloMosaic.ValueIdx
open Cert.MaxSim (rowDot best)

/-- The product's entry `(n, r)` reads the left matrix on row `n` … -/
theorem lrow (n r : Fin 8192) (k : Fin 512) : lidx_main_v13 (ix2 n r) k = ix2 n k :=
  funext fun a => Fin.ext (by match a with | ⟨0, _⟩ => rfl | ⟨1, _⟩ => rfl)
/-- … and the right matrix on row `r`. -/
theorem rrow (n r : Fin 8192) (k : Fin 512) : ridx_main_v13 (ix2 n r) k = ix2 r k :=
  funext fun a => Fin.ext (by match a with | ⟨0, _⟩ => rfl | ⟨1, _⟩ => rfl)

/-- Entry `n` of the reference's row maxima is the greatest inner product of feature row `n` with a memory row. -/
theorem v14_apply (x2 x3 : (⟨S8192x512, .f32⟩ : BufTy).Contents (Elt Ideal)) (n : Fin 8192) :
    val_main_v14 (F := Ideal) x2 x3 (ix1 n) = best (val_main_v10 (F := Ideal) x2) (val_main_v12 (F := Ideal) x3) n := by
  refine Cert.MaxSim.eq_best_of_le_iff _ _ n _ fun z => ?_
  unfold val_main_v14
  refine (Cert.MaxSim.rowMax_le_iff (A := 8192) (B := 8192) (val_main_v13 (F := Ideal) x2 x3) (val_main_cst_1 (F := Ideal))
    (fun _ => Cert.MaxSim.ofBits_neg_inf) reducesTo_S8192x8192_S8192_d1 (by decide) h_S_ n z).trans ?_
  refine forall_congr' fun r => ?_
  rw [val_main_v13_apply]
  simp only [lrow, rrow]
  exact Iff.rfl

end Cert.ReferenceIdeal.Sims

end
-- ==== Proof.Loss.lean ====
/-
  The loss both programs end with, as one function of the predictions `p`, the targets `t` and the vector `s` of
  greatest similarities.

  Per sample the logistic loss of `p` against `t` is `softplus p - p * t`, with `softplus p` written as
  `max p 0 + log1p (exp (-|p - 0|))` under a guard on `p - 0` being unordered with itself; it is weighted by
  `1 + 2 * (1 - s)`, and the result is the sum of the 8192 weighted losses from `0`, divided by `8192`. Both programs
  apply these operations, in this order and with these constants, to their own `s`; nothing below looks inside them.
-/
import Idealize.ShloMosaic.PureOps.Ideal

noncomputable section

namespace Cert.Loss

open Idealize.ShloMosaic

variable {F : FTy → Type} [FloatOps F]

/-- The shape of a vector with one entry per sample. -/
abbrev V1 : Shape := ⟨1, ![8192]⟩
/-- The shape of a scalar. -/
abbrev V0 : Shape := ⟨0, ![]⟩

theorem bc : V0.BroadcastsInDim V1 (![] : Fin 0 → Fin V1.rank) := by decide
theorem red : V1.ReducesTo [0] V0 := by decide
theorem pos : 0 < V0.numel := by decide

/-- The mean of the weighted logistic losses. -/
def weightedMean (p t s : FVec F V1 .f32) : FVec F V0 .f32 :=
  Host.divf
    (Host.reduceAdd
      (mulf
        (subf
          (select (cmpf .une (subf p (broadcastInDim V1 ![] bc (constant V0 .f32 0x00000000#32))) (subf p (broadcastInDim V1 ![] bc (constant V0 .f32 0x00000000#32))))
            (addf p (broadcastInDim V1 ![] bc (constant V0 .f32 0x00000000#32)))
            (addf (maximumf p (broadcastInDim V1 ![] bc (constant V0 .f32 0x00000000#32))) (Host.log1p (Host.exp (Host.negf (Host.absf (subf p (broadcastInDim V1 ![] bc (constant V0 .f32 0x00000000#32)))))))))
          (mulf p t))
        (addf (broadcastInDim V1 ![] bc (constant V0 .f32 0x3F800000#32)) (mulf (broadcastInDim V1 ![] bc (constant V0 .f32 0x40000000#32)) (subf (broadcastInDim V1 ![] bc (constant V0 .f32 0x3F800000#32)) s))))
      (constant V0 .f32 0x00000000#32) red pos)
    (constant V0 .f32 0x46000000#32)

end Cert.Loss

end
-- ==== Proof.Bridge.lean ====
/-
  The kernel's result as the reference's function of the arguments.

  Before the kernel runs, the host normalizes the rows of the feature and of the memory matrix exactly as the reference
  does (each row divided by the larger of its Euclidean norm and the same small constant; the narrowing to bf16 that
  follows is the identity on extended reals), so the arrays the kernel reads are the reference's two normalized
  matrices. The kernel's output row, reshaped to a vector, then agrees entry by entry with the reference's row maxima:
  both are the greatest inner product of a feature row with a memory row, the factors of each product in the other
  order. After the kernel, the host applies to that vector, the predictions and the targets the same weighted mean the
  reference applies. Hence the kernel's result is the reference's term of the same arguments.
-/
import proofs.«179216_j46334107189284_1_alg».proof.Proof.Gen.KernelIdeal.Frame
import proofs.«179216_j46334107189284_1_alg».proof.Proof.Gen.ReferenceIdeal.Read
import proofs.«179216_j46334107189284_1_alg».proof.Proof.Final
import proofs.«179216_j46334107189284_1_alg».proof.Proof.RefSims
import proofs.«179216_j46334107189284_1_alg».proof.Proof.Loss
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Bridge

open Cert.KernelIdeal Cert.KernelIdeal.Gen Idealize.ShloMosaic.StableHlo Idealize.ShloMosaic.ValueIdx
open Cert.KernelIdeal.Running Cert.KernelIdeal.Final
open Cert.MaxSim (best)

variable (m : (ℓ : Loc nD τ sig) → Buf (Elt Ideal) ℓ) (ρ : Dev nD → PrngReg)

/-! ## The arrays the kernel reads -/

/-- The feature array the region finds is the reference's normalized feature matrix of the same argument. -/
theorem farr_eq (c : Dev nD) : (farr m c : S8192x512.Idx → EReal)
    = Cert.ReferenceIdeal.Read.val_main_v10 (F := Ideal) (m ((c : Thread nD τ).loc main_arg2)) := by
  dsimp only [farr, V, V0]
  simp only [hostOps0, hostOps0_1, hostOps0_2, hostOps0_3, List.flatten_cons, List.flatten_nil, List.append_nil, List.cons_append,
    List.nil_append]
  after_results
  rfl

/-- The memory array the region finds is the reference's normalized memory matrix of the same argument. -/
theorem garr_eq (c : Dev nD) : (garr m c : S8192x512.Idx → EReal)
    = Cert.ReferenceIdeal.Read.val_main_v12 (F := Ideal) (m ((c : Thread nD τ).loc main_arg3)) := by
  dsimp only [garr, V, V0]
  simp only [hostOps0, hostOps0_1, hostOps0_2, hostOps0_3, List.flatten_cons, List.flatten_nil, List.append_nil, List.cons_append,
    List.nil_append]
  after_results
  rfl

/-! ## The two vectors of greatest similarities -/

/-- The kernel's output row, reshaped to a vector, is the reference's vector of row maxima. -/
theorem sims_eq (c : Dev nD) :
    shapeCast S8192 (sims m c) shapeCasts_S1x8192_S8192
      = Cert.ReferenceIdeal.Read.val_main_v14 (F := Ideal) (m ((c : Thread nD τ).loc main_arg2)) (m ((c : Thread nD τ).loc main_arg3)) := by
  funext i
  obtain ⟨n, rfl⟩ : ∃ n : Fin 8192, i = ix1 n := ⟨i 0, eq_ix1 i⟩
  rw [Cert.ReferenceIdeal.Sims.v14_apply]
  refine (shapeCast_apply (sims m c) _ (ix1 n) (ix2 (0 : Fin 1) n) (by
    rw [Shape.rowMajor_val_two, Shape.rowMajor_val_one]
    show 0 * 8192 + n.val = n.val
    omega)).trans ?_
  show best (farr m c) (garr m c) (col (ix2 (0 : Fin 1) n)) = _
  rw [farr_eq, garr_eq]
  rfl

/-! ## The host operations after the kernel -/

set_option maxHeartbeats 2000000 in
/-- The program's result is the weighted mean of the losses at the reshaped output row. -/
theorem tail_eq (c : Dev nD) :
    Pipeline.afterTail₀ cfgs (dats m) 0 (V0 m) [hostOps1, hostOps1_1, hostOps1_2] c main_v25
      = Cert.Loss.weightedMean (F := Ideal) (m ((c : Thread nD τ).loc main_arg0)) (m ((c : Thread nD τ).loc main_arg1))
          (shapeCast S8192 ((dats m 0 c).arrAt 2 cfg0.N) shapeCasts_S1x8192_S8192) := by
  have e0 : Pipeline.withArrays (cfgs 0).spec c (V0 m c) (fun w => (dats m 0 c).arrAt w (cfgs 0).N) (Proc.devRef .tc main_arg0) = m ((c : Thread nD τ).loc main_arg0) :=
    (Pipeline.withArrays_of_ne _ c (V0 m c) _ main_arg0 (by exact (by decide : ∀ w, Pipeline.arrRef spec0 w ≠ main_arg0))).trans
      (V_main_arg0 m c)
  have e1 : Pipeline.withArrays (cfgs 0).spec c (V0 m c) (fun w => (dats m 0 c).arrAt w (cfgs 0).N) (Proc.devRef .tc main_arg1) = m ((c : Thread nD τ).loc main_arg1) :=
    (Pipeline.withArrays_of_ne _ c (V0 m c) _ main_arg1 (by exact (by decide : ∀ w, Pipeline.arrRef spec0 w ≠ main_arg1))).trans
      (V_main_arg1 m c)
  have e2 : Pipeline.withArrays (cfgs 0).spec c (V0 m c) (fun w => (dats m 0 c).arrAt w (cfgs 0).N) (Proc.devRef .tc main_v12) = (dats m 0 c).arrAt 2 cfg0.N :=
    Pipeline.withArrays_arr spec0 launch0.win.arr_inj c _ _ 2
  unfold Pipeline.afterTail₀
  simp only [hostOps1, hostOps1_1, hostOps1_2, List.flatten_cons, List.flatten_nil, List.append_nil, List.cons_append,
    List.nil_append]
  after_results_simp
  rw [e0, e1, e2]
  rfl

/-! ## The run, read -/

/-- The term the reference computes, of this program's arguments. -/
abbrev result (c : Dev nD) : Buf (Elt Ideal) ((c : Thread nD τ).loc main_v25) :=
  Cert.Loss.weightedMean (F := Ideal) (m ((c : Thread nD τ).loc main_arg0)) (m ((c : Thread nD τ).loc main_arg1))
    (Cert.ReferenceIdeal.Read.val_main_v14 (F := Ideal) (m ((c : Thread nD τ).loc main_arg2)) (m ((c : Thread nD τ).loc main_arg3)))

/-- Every weakly fair execution terminates with the result at that term and the arguments unchanged. -/
theorem run : θ_run defs (onTc (τ := τ) (main (F := Ideal))) ⟨m, fun _ => 0, ρ⟩ fun r => ∀ c : Dev nD,
      r.2.mem ((c.tc : Thread nD τ).loc main_v25) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v25 (Pipeline.mem_restRefs_of main_v25 (by decide) (by decide))).trans
        ((tail_eq m c).trans (by rw [final, sims_eq])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Bridge

end
-- ==== Proof.lean ====
/-
  The novelty-weighted logistic loss: a tiled kernel for the greatest cosine similarities against the whole-matrix
  reference, over the extended reals.

  Both programs divide every row of the feature matrix and of the memory matrix by the larger of its Euclidean norm
  and one small constant, take for each feature row the greatest inner product with a memory row, and return the mean
  over the samples of `(softplus p - p * t) * (1 + 2 * (1 - s))` at those greatest similarities `s`. The reference
  forms the whole 8192 × 8192 matrix of inner products and takes the maximum of each row. The kernel walks an 8 × 8 grid
  of 1024 × 1024 tiles: for a feature tile it keeps a row of running maxima, reset to `-∞` at the first memory tile,
  raised at each memory tile by the column maxima of the tile's product, and written out at the last.

  A maximum is determined by which bounds it lies below, so neither the order nor the grouping of the `max`
  operations matters, and a product of two extended reals does not depend on the order of its factors: after all
  eight memory tiles the running maximum of a feature row is below `z` exactly when every one of the 8192 inner
  products is, which is what the reference's row maximum satisfies. No finiteness is used. The ideal pass rewrote
  nothing, so the kernel's idealization is the kernel's own text read over the extended reals.
-/
import proofs.«179216_j46334107189284_1_alg».proof.Defs
import proofs.«179216_j46334107189284_1_alg».proof.Proof.Gen.Kernel
import proofs.«179216_j46334107189284_1_alg».proof.Proof.Gen.Kernel.Frame
import proofs.«179216_j46334107189284_1_alg».proof.Proof.Gen.KernelIdeal
import proofs.«179216_j46334107189284_1_alg».proof.Proof.Gen.KernelIdeal.Frame
import proofs.«179216_j46334107189284_1_alg».proof.Proof.Gen.ReferenceIdeal
import proofs.«179216_j46334107189284_1_alg».proof.Proof.Gen.ReferenceIdeal.Run
import proofs.«179216_j46334107189284_1_alg».proof.Proof.Gen.ReferenceIdeal.Read
import proofs.«179216_j46334107189284_1_alg».proof.Proof.Gen.Pre_finite_inputs
import proofs.«179216_j46334107189284_1_alg».proof.Proof.Bridge
import Idealize.ShloMosaic.Adequacy
import Idealize.ShloMosaic.Init

noncomputable section

namespace Cert.Proof

open Idealize.ShloMosaic Idealize.SL.Sem

/-- The kernel runs and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: it runs, and its arguments end unchanged. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The reference's result is the weighted mean of the losses at its vector of row maxima. -/
theorem ref_result (x0 x1 : (⟨Cert.ReferenceIdeal.S8192, .f32⟩ : BufTy).Contents (Elt Ideal))
    (x2 x3 : (⟨Cert.ReferenceIdeal.S8192x512, .f32⟩ : BufTy).Contents (Elt Ideal)) :
    Cert.ReferenceIdeal.Read.val_main_v23 (F := Ideal) x0 x1 x2 x3
      = Cert.Loss.weightedMean (F := Ideal) x0 x1 (Cert.ReferenceIdeal.Read.val_main_v14 (F := Ideal) x2 x3) := rfl

/-- From arguments that agree both programs end at the reference's term of those arguments. -/
theorem algebraic : Cert.algebraic_KernelIdeal_ReferenceIdeal := by
  intro m ρ m' ρ' _ hagree
  refine ⟨fun c => Cert.KernelIdeal.Bridge.result m c, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, ref_result, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
